-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S128x8192 : Shape := ⟨2, ![128, 8192]⟩
abbrev S128x64x128 : Shape := ⟨3, ![128, 64, 128]⟩
abbrev S128x64 : Shape := ⟨2, ![128, 64]⟩
abbrev S128x64x1 : Shape := ⟨3, ![128, 64, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  shapeCasts_S128x8192_S128x64x128 : S128x8192.ShapeCasts S128x64x128
  reduces_S128x64x128_S128x64 : S128x64x128.Reduces [2] S128x64
  shapeCasts_S128x64_S128x64x1 : S128x64.ShapeCasts S128x64x1
  broadcasts_S128x64x1_S128x64x128 : S128x64x1.Broadcasts S128x64x128
  shapeCasts_S128x64x128_S128x8192 : S128x64x128.ShapeCasts S128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096x64x128 : Shape := ⟨3, ![4096, 64, 128]⟩
abbrev S_ : Shape := ⟨0, ![]⟩
abbrev S4096x64 : Shape := ⟨2, ![4096, 64]⟩
abbrev S4096x64x1 : Shape := ⟨3, ![4096, 64, 1]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x64x128, .f32⟩
  | .hbm, ⟨2, _⟩ => ⟨S_, .f32⟩
  | .hbm, ⟨3, _⟩ => ⟨S4096x64, .f32⟩
  | .hbm, ⟨4, _⟩ => ⟨S4096x64x1, .f32⟩
  | .hbm, ⟨5, _⟩ => ⟨S4096x64x128, .f32⟩
  | .hbm, ⟨6, _⟩ => ⟨S4096x64x128, .f32⟩
  | .hbm, ⟨7, _⟩ => ⟨S_, .f32⟩
  | .hbm, ⟨8, _⟩ => ⟨S4096x64x128, .f32⟩
  | .hbm, ⟨9, _⟩ => ⟨S4096x64x128, .f32⟩
  | .hbm, ⟨10, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S4096x8192_S4096x64x128 : S4096x8192.ShapeCasts S4096x64x128
  reducesTo_S4096x64x128_S4096x64_d2 : S4096x64x128.ReducesTo [2] S4096x64
  h_S_ : 0 < S_.numel
  bcast_S4096x64_S4096x64x1_0_1 : S4096x64.BroadcastsInDim S4096x64x1 (![0, 1] : Fin 2 → Fin S4096x64x1.rank)
  bcast_S4096x64x1_S4096x64x128_0_1_2 : S4096x64x1.BroadcastsInDim S4096x64x128 (![0, 1, 2] : Fin 3 → Fin S4096x64x128.rank)
  bcast_S_S4096x64x128 : S_.BroadcastsInDim S4096x64x128 (![] : Fin 0 → Fin S4096x64x128.rank)
  shapeCasts_S4096x64x128_S4096x8192 : S4096x64x128.ShapeCasts S4096x8192

variable [Facts₀]

class Facts : Prop extends Facts₀ where

variable [Facts]
-- ==== Proof.GroupInhibit.lean ====
/-
  Lateral inhibition inside groups of 128 neighbouring columns, as a function of ONE ROW of 8192 extended reals.

  Column `q` belongs to the group of the 128 consecutive columns `128·(q / 128) … 128·(q / 128) + 127`. What a column
  receives is half of what the OTHER members of its group hold: the group's sum, less the column's own entry, times
  the strength `1/2` (kept as the f32 word `0x3F000000` that both programs print, never evaluated). Rows do not
  interact, so a block of 128 rows and the whole array of 4096 rows are the same function applied row by row.
-/
import Idealize.ShloMosaic.PureOps.Ideal
import Idealize.ShloMosaic.Lib.ValueIdx

noncomputable section

open scoped BigOperators

namespace Cert.GroupInhibit

open Idealize.ShloMosaic Idealize.ShloMosaic.ValueIdx

/-- The inhibition strength: the extended real the f32 word of `0.5` denotes. -/
def strength : EReal := Ideal.ofBits .f32 0x3F000000#32

/-- Member `k` of the group of 128 consecutive columns that column `q` belongs to. -/
def member (q : Fin 8192) (k : Fin 128) : Fin 8192 :=
  ⟨q.val / 128 * 128 + k.val, by have := q.isLt; have := k.isLt; omega⟩

theorem member_val (q : Fin 8192) (k : Fin 128) : (member q k).val = q.val / 128 * 128 + k.val := rfl

/-- What column `q` of a row receives: (the sum over its group − its own entry) · strength. -/
def ofRow (row : Fin 8192 → EReal) (q : Fin 8192) : EReal :=
  ((∑ k : Fin 128, row (member q k)) - row q) * strength

/-- The same, row by row, on a block of 128 rows. -/
def ofBlock (x : (⟨2, ![128, 8192]⟩ : Shape).Idx → EReal) : (⟨2, ![128, 8192]⟩ : Shape).Idx → EReal :=
  fun y => ofRow (fun q => x (ix2 (y 0) q)) (y 1)

/-- The same, row by row, on the whole array of 4096 rows. -/
def ofArray (x : (⟨2, ![4096, 8192]⟩ : Shape).Idx → EReal) : (⟨2, ![4096, 8192]⟩ : Shape).Idx → EReal :=
  fun i => ofRow (fun q => x (ix2 (i 0) q)) (i 1)

theorem ofBlock_ix2 (x : (⟨2, ![128, 8192]⟩ : Shape).Idx → EReal) (p : Fin 128) (q : Fin 8192) :
    ofBlock x (ix2 p q) = ofRow (fun q' => x (ix2 p q')) q := rfl

theorem ofArray_ix2 (x : (⟨2, ![4096, 8192]⟩ : Shape).Idx → EReal) (r : Fin 4096) (q : Fin 8192) :
    ofArray x (ix2 r q) = ofRow (fun q' => x (ix2 r q')) q := rfl

/-- A block whose row `y 0` is row `i 0` of an array receives, at the same column, what the array receives there: the
    inhibition reads nothing outside the row. -/
theorem ofBlock_eq_ofArray (B : (⟨2, ![128, 8192]⟩ : Shape).Idx → EReal) (X : (⟨2, ![4096, 8192]⟩ : Shape).Idx → EReal)
    (y : (⟨2, ![128, 8192]⟩ : Shape).Idx) (i : (⟨2, ![4096, 8192]⟩ : Shape).Idx)
    (hcol : (i 1).val = (y 1).val) (hrow : ∀ q : Fin 8192, B (ix2 (y 0) q) = X (ix2 (i 0) q)) :
    ofBlock B y = ofArray X i :=
  congrArg₂ ofRow (funext hrow) (Fin.ext hcol.symm)

end Cert.GroupInhibit

end
-- ==== Proof.KernelBlock.lean ====
/-
  What ONE grid point of the kernel leaves in its output block, at the extended reals.

  The body loads its whole [128, 8192] block, views it as [128, 64, 128] (row, group, lane), sums the lanes of each
  (row, group), spreads that sum back over the lanes, subtracts the block itself, multiplies by the strength and views
  the result as [128, 8192] again. The generated value leg has already read the re-laying operations at an index
  (`Value.canon1_eq`): entry (p, q) of the block is (lane sum at (p, q / 128) − the load at (p, q)) · strength.
  Left to do here: the lane sum at (p, g) is the sum over the 128 members of column q's group of the loaded row p —
  element (p, g, k) of the three-axis view sits at row-major position (p·64 + g)·128 + k = p·8192 + (g·128 + k) —, so
  the block is `GroupInhibit.ofBlock` of the loaded block.
-/
import proofs.«144010_j68161130987768_1_alg».proof.Proof.Gen.KernelIdeal.Value
import proofs.«144010_j68161130987768_1_alg».proof.Proof.GroupInhibit
import Idealize.ShloMosaic.PureOps.Ideal.Laws
import Idealize.ShloMosaic.Lib.ValueIdx
import Idealize.ShloMosaic.Lib.Pipeline.Value

noncomputable section

open scoped BigOperators

namespace Cert.KernelIdeal.Block

open Cert.KernelIdeal Cert.KernelIdeal.Gen Idealize.ShloMosaic Idealize.ShloMosaic.TcCoe Idealize.SL.Sem
open Idealize.ShloMosaic.ValueIdx Cert.GroupInhibit

/-- The offsets of the body's one rectangle are all zero. -/
theorem offsets_zero : (![0, 0] : Fin 2 → Nat) = fun _ => 0 := funext fun a => by fin_cases a <;> rfl

/-- The lane sum of row `p` at the group of column `q`: the sum of row `p` of the loaded block over that group's 128
    columns. -/
theorem laneSum_apply (x0 : FVec Ideal S128x8192 .f32) (p : Fin 128) (q : Fin 8192) :
    (multiReduction .add [2] S128x64 (shapeCast S128x64x128 x0 shapeCasts_S128x8192_S128x64x128) 0x00000000#32
        reduces_S128x64x128_S128x64 (.inl rfl) rfl) (Value.ix1_0 (ix2 p q))
      = ∑ k : Fin 128, x0 (ix2 p (member q k)) := by
  refine (Ideal.multiReduction_add_single _ _ _ _ _ _).trans ?_
  refine Finset.sum_congr rfl fun k _ => ?_
  refine shapeCast_apply _ _ _ (ix2 p (member q k)) ?_
  rw [Shape.rowMajor_val_two, Shape.rowMajor_val_three]
  show p.val * 8192 + (q.val / 128 * 128 + k.val) = (p.val * 64 + q.val / 128) * 128 + k.val
  omega

/-- The body's output block is the group inhibition of its input block, row by row. -/
theorem out_eq (x0 : FVec Ideal S128x8192 .f32) : out0_1 (F := Ideal) x0 = ofBlock x0 := by
  funext y
  obtain ⟨p, q, rfl⟩ : ∃ (p : Fin 128) (q : Fin 8192), y = ix2 p q := ⟨y 0, y 1, eq_ix2 y⟩
  unfold out0_1
  rw [View.ld_unit_zero (S := S128x8192) offsets_zero]
  refine (Value.canon1_eq (F := Ideal) x0 (ix2 p q)).trans ?_
  rw [ofBlock_ix2]
  show (multiReduction .add [2] S128x64 (shapeCast S128x64x128 x0 shapeCasts_S128x8192_S128x64x128) 0x00000000#32
        reduces_S128x64x128_S128x64 (.inl rfl) rfl (Value.ix1_0 (ix2 p q)) - x0 (Value.ix1_1 (ix2 p q))) * strength = _
  rw [laneSum_apply]
  have e : Value.ix1_1 (ix2 p q) = ix2 p q := by
    funext a; apply Fin.ext
    match a with | ⟨0, _⟩ => rfl | ⟨1, _⟩ => rfl
  rw [e]
  rfl

end Cert.KernelIdeal.Block

end
-- ==== Proof.KernelArray.lean ====
/-
  From the kernel's blocks to its whole result array, at the extended reals.

  The grid has 32 points; at point `t` both windows sit on block row `t` and block column 0, i.e. on the rows
  `128·t … 128·t + 127` of their arrays, every column. Since the inhibition works row by row, what point `t` writes
  back — the inhibition of ITS 128 rows of the argument — is block `t` of the inhibition of the whole argument array.
  Every row `r` lies in the block of point `r / 128`, so the blocks cover the result array, which therefore ends
  holding `GroupInhibit.ofArray` of the argument.
-/
import proofs.«144010_j68161130987768_1_alg».proof.Proof.KernelBlock
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.GroupInhibit

variable (m : (ℓ : Loc nD τ sig) → Buf (Elt Ideal) ℓ) (ρ : Dev nD → PrngReg)

/-- Both index maps send grid point `t` to block row `t`, block column 0 (decided over the 32 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the group inhibition of the argument array: the point's input block is
    the same rows of the argument as its output block is of the result, and the inhibition stays inside a row. -/
theorem flushed_eq (c : Dev nD) (t : Fin cfg0.N) :
    (dats m 0 c).flushed 1 t = ((cfg0.win 1).blk t).view.read (Elt Ideal) (ofArray (V m c main_arg0)) := by
  rw [Value.flushed1]
  obtain ⟨e00, e01, e10, e11⟩ := idx_facts t
  funext j
  show out0_1 (iblk m c 0 t) j = ofArray (V m c main_arg0) (((cfg0.win 1).blk t).view.emb j)
  refine (congrFun (Block.out_eq (iblk m c 0 t)) j).trans ?_
  refine ofBlock_eq_ofArray (iblk m c 0 t) (V m c main_arg0) j (((cfg0.win 1).blk t).view.emb j) ?_ ?_
  · show win0_1.index t (1 : Fin 2) * 8192 + 1 * (j 1).val = (j 1).val
    rw [e11]; omega
  · intro q
    show V m c main_arg0 (((cfg0.win 0).blk t).view.emb (ix2 (j 0) q))
      = V m c main_arg0 (ix2 ((((cfg0.win 1).blk t).view.emb j) 0) q)
    refine congrArg (V m c main_arg0) ?_
    funext a; apply Fin.ext
    match a with
    | ⟨0, _⟩ =>
      show win0_0.index t (0 : Fin 2) * 128 + 1 * (j 0).val = win0_1.index t (0 : Fin 2) * 128 + 1 * (j 0).val
      rw [e00, e10]
    | ⟨1, _⟩ =>
      show win0_0.index t (1 : Fin 2) * 8192 + 1 * q.val = q.val
      rw [e01]; omega

/-- An index of the result array is in point `t`'s block iff each coordinate is in the block's range on its axis. -/
theorem mem_blk (t : Fin cfg0.N) (i : S4096x8192.Idx) :
    i ∈ ((cfg0.win 1).blk t).view.set ↔ ∀ a : Fin 2, win0_1.index t a * S128x8192.size a ≤ (i a).val
      ∧ (i a).val < win0_1.index t a * S128x8192.size a + S128x8192.size a := by
  show i ∈ ((View.whole main_v0).slice (win0_1.rect t)).set ↔ _
  rw [View.set_slice_whole, Rect.mem_set_unit]
  exact Iff.rfl

/-- Row `r` of the result array lies in the block of point `r / 128`: the blocks cover the array. -/
theorem cover (i : S4096x8192.Idx) :
    ∃ t : Fin cfg0.N, (cfg0.win 1).flush t = true ∧ i ∈ ((cfg0.win 1).blk t).view.set := by
  have hi0 : (i 0).val < 4096 := (i 0).isLt
  have hi1 : (i 1).val < 8192 := (i 1).isLt
  have hN : cfg0.N = 32 := N_0
  obtain ⟨t, ht⟩ : ∃ t : Fin cfg0.N, t.val = (i 0).val / 128 := ⟨⟨(i 0).val / 128, by rw [hN]; omega⟩, rfl⟩
  obtain ⟨-, -, e10, e11⟩ := idx_facts t
  refine ⟨t, flush0_1 t, ?_⟩
  rw [mem_blk]
  intro a
  match a with
  | ⟨0, _⟩ =>
    show win0_1.index t (0 : Fin 2) * 128 ≤ (i 0).val ∧ (i 0).val < win0_1.index t (0 : Fin 2) * 128 + 128
    rw [e10, ht]; omega
  | ⟨1, _⟩ =>
    show win0_1.index t (1 : Fin 2) * 8192 ≤ (i 1).val ∧ (i 1).val < win0_1.index t (1 : Fin 2) * 8192 + 8192
    rw [e11]; omega

/-- The result array after the run is the group inhibition of the argument array. -/
theorem final (c : Dev nD) : (dats m 0 c).arrAt 1 cfg0.N = ofArray (m ((c : Thread nD τ).loc main_arg0)) :=
  (dats m 0 c).arrAt_eq_of_cover 1 (ofArray (V m c main_arg0)) (fun t _ => flushed_eq m c t) cover

/-- The kernel's run, read: the result at the group inhibition of the argument, the argument unchanged. -/
theorem run : θ_run defs (onTc (τ := τ) (main (F := Ideal))) ⟨m, fun _ => 0, ρ⟩ fun r => ∀ c : Dev nD,
      r.2.mem ((c : Thread nD τ).loc main_v0) = ofArray (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.ReferenceArray.lean ====
/-
  The reference's result, read at an index, is the group inhibition of its argument.

  The reference views the [4096, 8192] argument as [4096, 64, 128] (row, group, lane), sums the lanes from the
  initial value `0`, spreads the sum back over the lanes in two broadcasts, subtracts the three-axis view of the argument,
  multiplies by the strength and views the result as [4096, 8192]. The generated read-at-an-index lemmas take
  the operations one at a time; composed, entry (r, q) of the result reads the argument at
  (r, 128·(q / 128) + k) for the sum's term `k` and at (r, q) for the subtrahend — the two index equations below, both
  arithmetic on row-major positions (position r·8192 + q is (r·64 + q / 128)·128 + q % 128).
-/
import proofs.«144010_j68161130987768_1_alg».proof.Proof.Gen.ReferenceIdeal.Read
import proofs.«144010_j68161130987768_1_alg».proof.Proof.GroupInhibit
import Idealize.ShloMosaic.PureOps.Ideal.Laws
import Idealize.ShloMosaic.Lib.ValueIdx

noncomputable section

open scoped BigOperators

namespace Cert.ReferenceIdeal.Inhibit

open Cert.ReferenceIdeal Cert.ReferenceIdeal.Gen Idealize.ShloMosaic Idealize.ShloMosaic.TcCoe Idealize.SL.Sem
open Idealize.ShloMosaic.ValueIdx Cert.GroupInhibit

/-- Through the two views, entry (r, q) of the result reads the argument's entry (r, q). -/
theorem idx_self (r : Fin 4096) (q : Fin 8192) : Read.idx_main_v0 (Read.idx_main_v7 (ix2 r q)) = ix2 r q := by
  funext a; apply Fin.ext
  have hr := r.isLt; have hq := q.isLt
  match a with
  | ⟨0, _⟩ =>
    show (((r.val * 8192 + q.val) / 8192 * 64 + (r.val * 8192 + q.val) / 128 % 64) * 128 + (r.val * 8192 + q.val) % 128) / 8192 = r.val
    omega
  | ⟨1, _⟩ =>
    show (((r.val * 8192 + q.val) / 8192 * 64 + (r.val * 8192 + q.val) / 128 % 64) * 128 + (r.val * 8192 + q.val) % 128) % 8192 = q.val
    omega

/-- Term `k` of the lane sum behind entry (r, q) reads the argument at member `k` of column `q`'s group, in row `r`. -/
theorem idx_member (r : Fin 4096) (q : Fin 8192) (k : Fin 128) :
    Read.idx_main_v0 (Read.idx_main_v1 (Read.idx_main_v2 (Read.idx_main_v3 (Read.idx_main_v7 (ix2 r q)))) k) = ix2 r (member q k) := by
  funext a; apply Fin.ext
  have hr := r.isLt; have hq := q.isLt; have hk := k.isLt
  match a with
  | ⟨0, _⟩ =>
    show (((r.val * 8192 + q.val) / 8192 * 64 + (r.val * 8192 + q.val) / 128 % 64) * 128 + k.val) / 8192 = r.val
    omega
  | ⟨1, _⟩ =>
    show (((r.val * 8192 + q.val) / 8192 * 64 + (r.val * 8192 + q.val) / 128 % 64) * 128 + k.val) % 8192 = q.val / 128 * 128 + k.val
    omega

/-- The reference's last stage is the group inhibition of the argument array. -/
theorem result_eq (x : (⟨S4096x8192, .f32⟩ : BufTy).Contents (Elt Ideal)) :
    Read.val_main_v7 (F := Ideal) x = ofArray x := by
  funext i
  obtain ⟨r, q, rfl⟩ : ∃ (r : Fin 4096) (q : Fin 8192), i = ix2 r q := ⟨i 0, i 1, eq_ix2 i⟩
  rw [ofArray_ix2]
  simp only [Read.val_main_v7_apply, Read.val_main_v6_apply, Read.val_main_v5_apply, Read.val_main_cst_0_apply,
    Read.val_main_v4_apply, Read.val_main_v3_apply, Read.val_main_v2_apply, Read.val_main_v1_apply,
    Read.val_main_cst_apply, Read.val_main_v0_apply, idx_self, idx_member,
    Ideal.ofBits_def, Ideal.ofBits_zero_f32, zero_add, Ideal.subf_def, Ideal.mulf_def]
  rfl

end Cert.ReferenceIdeal.Inhibit

end
-- ==== Proof.lean ====
/-
  The certificate of the grouped lateral-inhibition kernel against its jnp reference, over the extended reals.

  Both programs take a [4096, 8192] array and return, at row `r` and column `q`,
      (the sum of row `r` over the 128 columns of `q`'s group − the entry at (r, q)) · 1/2,
  the groups being the 64 runs of 128 consecutive columns (Proof/GroupInhibit.lean: `ofArray`). The kernel does it on
  32 blocks of 128 whole rows (Proof/KernelBlock.lean: one block; Proof/KernelArray.lean: the blocks cover the array),
  the reference on the whole array at once (Proof/ReferenceArray.lean). The two sides are the SAME expression of the
  argument — the same sum, difference and product, with the same f32 word for 1/2 — so no law of the extended reals
  beyond `0 + s = s` (the reference's sum starts from the literal `0`) is needed, and the inputs' finiteness is not used.
  The idealized kernel is the kernel's own text read at the extended reals (no operation was rewritten), so `preserves` is `True`. The frames of the two kernel programs are the generated ones; the
  reference's frame is its generated run with the result dropped.
-/
import proofs.«144010_j68161130987768_1_alg».proof.Defs
import proofs.«144010_j68161130987768_1_alg».proof.Proof.Gen.Kernel
import proofs.«144010_j68161130987768_1_alg».proof.Proof.Gen.Kernel.Skeleton
import proofs.«144010_j68161130987768_1_alg».proof.Proof.Gen.Kernel.Launch
import proofs.«144010_j68161130987768_1_alg».proof.Proof.Gen.Kernel.Points
import proofs.«144010_j68161130987768_1_alg».proof.Proof.Gen.Kernel.Frame
import proofs.«144010_j68161130987768_1_alg».proof.Proof.Gen.KernelIdeal
import proofs.«144010_j68161130987768_1_alg».proof.Proof.Gen.KernelIdeal.Skeleton
import proofs.«144010_j68161130987768_1_alg».proof.Proof.Gen.KernelIdeal.Launch
import proofs.«144010_j68161130987768_1_alg».proof.Proof.Gen.KernelIdeal.Points
import proofs.«144010_j68161130987768_1_alg».proof.Proof.Gen.KernelIdeal.Frame
import proofs.«144010_j68161130987768_1_alg».proof.Proof.Gen.ReferenceIdeal
import proofs.«144010_j68161130987768_1_alg».proof.Proof.Gen.Pre_finite_inputs
import proofs.«144010_j68161130987768_1_alg».proof.Proof.Gen.KernelIdeal.Value
import proofs.«144010_j68161130987768_1_alg».proof.Proof.Gen.ReferenceIdeal.Run
import proofs.«144010_j68161130987768_1_alg».proof.Proof.Gen.ReferenceIdeal.Read
import proofs.«144010_j68161130987768_1_alg».proof.Proof.KernelArray
import proofs.«144010_j68161130987768_1_alg».proof.Proof.ReferenceArray
import Idealize.ShloMosaic.Adequacy
import Idealize.ShloMosaic.Init

noncomputable section

namespace Cert.Proof

open Idealize.ShloMosaic Idealize.ShloMosaic.TcCoe Idealize.SL.Sem

/-- The word-level kernel runs and leaves its argument alone. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its argument alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are both the group inhibition of the
    argument: (group sum − own entry) · 1/2 at every row and column. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v7_eq _).trans (Cert.ReferenceIdeal.Inhibit.result_eq _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
